-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : FVec F S64x512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  main_v3
-- ==== Kernel.lean ====
abbrev S64x512x512 : Shape := ⟨3, ![64, 512, 512]⟩
abbrev S16384x1024 : Shape := ⟨2, ![16384, 1024]⟩
abbrev S16384x256 : Shape := ⟨2, ![16384, 256]⟩
abbrev S256x1024 : Shape := ⟨2, ![256, 1024]⟩
abbrev S256x256 : Shape := ⟨2, ![256, 256]⟩
abbrev S64x128 : Shape := ⟨2, ![64, 128]⟩
abbrev S64x1024 : Shape := ⟨2, ![64, 1024]⟩
abbrev S64x512 : Shape := ⟨2, ![64, 512]⟩
abbrev S64x128x1 : Shape := ⟨3, ![64, 128, 1]⟩
abbrev S64x64 : Shape := ⟨2, ![64, 64]⟩
abbrev S64x256 : Shape := ⟨2, ![64, 256]⟩
abbrev S64x256x256 : Shape := ⟨3, ![64, 256, 256]⟩

abbrev nBuf : Space → Nat
  | .hbm => 4
  | .vmem => 4
  | .smem => 0
  | _ => 0

abbrev bufTy : (tb : Table) → Fin (tcTables nBuf tb) → BufTy
  | .hbm, ⟨0, _⟩ => ⟨S64x512x512, .f32⟩
  | .hbm, ⟨1, _⟩ => ⟨S16384x1024, .f32⟩
  | .hbm, ⟨2, _⟩ => ⟨S16384x256, .f32⟩
  | .hbm, ⟨3, _⟩ => ⟨S64x256x256, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x512x512_S16384x1024 : S64x512x512.ShapeCasts S16384x1024
  iota_S64x128_d1_w32 : S64x128.Iotas .tc 32 [1]
  inb_S256x1024_S64x1024_0_0 : ∀ a, (![0, 0] : Fin 2 → Nat) a + S64x1024.size a ≤ S256x1024.size a
  h_S64x1024 : 0 < S64x1024.numel
  shapeCasts_S64x1024_S64x1024 : S64x1024.ShapeCasts S64x1024
  slices_S64x1024_o0_0_S64x512 : S64x1024.Slices ![0, 0] S64x512
  slices_S64x512_o0_0_S64x128 : S64x512.Slices ![0, 0] S64x128
  shapeCasts_S64x128_S64x128x1 : S64x128.ShapeCasts S64x128x1
  shapeCasts_S64x128x1_S64x128 : S64x128x1.ShapeCasts S64x128
  slices_S64x512_o0_128_S64x128 : S64x512.Slices ![0, 128] S64x128
  slices_S64x128_o0_0_S64x64 : S64x128.Slices ![0, 0] S64x64
  concatenates_S64x64_S64x64_S64x128_d1 : Shape.Concatenates [S64x64, S64x64] S64x128 1
  slices_S64x128_o0_64_S64x64 : S64x128.Slices ![0, 64] S64x64
  slices_S64x512_o0_256_S64x128 : S64x512.Slices ![0, 256] S64x128
  slices_S64x512_o0_384_S64x128 : S64x512.Slices ![0, 384] S64x128
  concatenates_S64x128_S64x128_S64x256_d1 : Shape.Concatenates [S64x128, S64x128] S64x256 1
  slices_S64x1024_o0_512_S64x512 : S64x1024.Slices ![0, 512] S64x512
  inb_S256x256_S64x256_0_0 : ∀ a, (![0, 0] : Fin 2 → Nat) a + S64x256.size a ≤ S256x256.size a
  h_S64x256 : 0 < S64x256.numel
  inb_S256x1024_S64x1024_64_0 : ∀ a, (![64, 0] : Fin 2 → Nat) a + S64x1024.size a ≤ S256x1024.size a
  inb_S256x256_S64x256_64_0 : ∀ a, (![64, 0] : Fin 2 → Nat) a + S64x256.size a ≤ S256x256.size a
  inb_S256x1024_S64x1024_128_0 : ∀ a, (![128, 0] : Fin 2 → Nat) a + S64x1024.size a ≤ S256x1024.size a
  inb_S256x256_S64x256_128_0 : ∀ a, (![128, 0] : Fin 2 → Nat) a + S64x256.size a ≤ S256x256.size a
  inb_S256x1024_S64x1024_192_0 : ∀ a, (![192, 0] : Fin 2 → Nat) a + S64x1024.size a ≤ S256x1024.size a
  inb_S256x256_S64x256_192_0 : ∀ a, (![192, 0] : Fin 2 → Nat) a + S64x256.size a ≤ S256x256.size a
  shapeCasts_S16384x256_S64x256x256 : S16384x256.ShapeCasts S64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S16384x256.size a
  hwx0_1 : ∀ i : grid0.Coords, EltTy.bits .f32 = 32 ∨ (Rect.block (s := S16384x256) S256x256.size (cc0_transform_1 i) (hinb0_1 i)).WholeWords (EltTy.packing .f32)

variable [Facts₀]

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x256x2x256x2 : Shape := ⟨5, ![64, 256, 2, 256, 2]⟩
abbrev S64x256x256x2x2 : Shape := ⟨5, ![64, 256, 256, 2, 2]⟩
abbrev S64x256x256x4 : Shape := ⟨4, ![64, 256, 256, 4]⟩
abbrev S64x256x256x1 : Shape := ⟨4, ![64, 256, 256, 1]⟩
abbrev S64x256x256 : Shape := ⟨3, ![64, 256, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x256x2x256x2, .f32⟩
  | .hbm, ⟨2, _⟩ => ⟨S64x256x256x2x2, .f32⟩
  | .hbm, ⟨3, _⟩ => ⟨S64x256x256x4, .f32⟩
  | .hbm, ⟨4, _⟩ => ⟨S64x256x256x1, .f32⟩
  | .hbm, ⟨5, _⟩ => ⟨S64x256x256, .f32⟩
  | .hbm, ⟨6, _⟩ => ⟨S64x256x256x1, .f32⟩
  | .hbm, ⟨7, _⟩ => ⟨S64x256x256, .f32⟩
  | .hbm, ⟨8, _⟩ => ⟨S64x256x256, .f32⟩
  | .hbm, ⟨9, _⟩ => ⟨S_, .f32⟩
  | .hbm, ⟨10, _⟩ => ⟨S64x256x256, .f32⟩
  | .hbm, ⟨11, _⟩ => ⟨S64x256x256, .f32⟩
  | .hbm, ⟨12, _⟩ => ⟨S_, .f32⟩
  | .hbm, ⟨13, _⟩ => ⟨S64x256x256, .f32⟩
  | .hbm, ⟨14, _⟩ => ⟨S64x256x256, .f32⟩
  | .hbm, ⟨15, _⟩ => ⟨S64x256x256, .f32⟩
  | .hbm, ⟨16, _⟩ => ⟨S_, .f32⟩
  | .hbm, ⟨17, _⟩ => ⟨S64x256x256, .f32⟩
  | .hbm, ⟨18, _⟩ => ⟨S64x256x256, .f32⟩
  | .hbm, ⟨19, _⟩ => ⟨S64x256x256x1, .f32⟩
  | .hbm, ⟨20, _⟩ => ⟨S64x256x256, .f32⟩
  | .hbm, ⟨21, _⟩ => ⟨S64x256x256x1, .f32⟩
  | .hbm, ⟨22, _⟩ => ⟨S64x256x256, .f32⟩
  | .hbm, ⟨23, _⟩ => ⟨S64x256x256, .f32⟩
  | .hbm, ⟨24, _⟩ => ⟨S_, .f32⟩
  | .hbm, ⟨25, _⟩ => ⟨S64x256x256, .f32⟩
  | .hbm, ⟨26, _⟩ => ⟨S64x256x256, .f32⟩
  | .hbm, ⟨27, _⟩ => ⟨S_, .f32⟩
  | .hbm, ⟨28, _⟩ => ⟨S64x256x256, .f32⟩
  | .hbm, ⟨29, _⟩ => ⟨S64x256x256, .f32⟩
  | .hbm, ⟨30, _⟩ => ⟨S64x256x256, .f32⟩
  | .hbm, ⟨31, _⟩ => ⟨S_, .f32⟩
  | .hbm, ⟨32, _⟩ => ⟨S64x256x256, .f32⟩
  | .hbm, ⟨33, _⟩ => ⟨S64x256x256, .f32⟩
  | .hbm, ⟨34, _⟩ => ⟨S64x256x256, .f32⟩
  | .hbm, ⟨35, _⟩ => ⟨S_, .f32⟩
  | .hbm, ⟨36, _⟩ => ⟨S64x256x256, .f32⟩
  | .hbm, ⟨37, _⟩ => ⟨S64x256x256, .f32⟩
  | .hbm, ⟨38, _⟩ => ⟨S_, .f32⟩
  | .hbm, ⟨39, _⟩ => ⟨S64x256x256, .f32⟩
  | .hbm, ⟨40, _⟩ => ⟨S64x256x256, .f32⟩
  | .hbm, ⟨41, _⟩ => ⟨S64x256x256, .f32⟩
  | .hbm, ⟨42, _⟩ => ⟨S_, .f32⟩
  | .hbm, ⟨43, _⟩ => ⟨S64x256x256, .f32⟩
  | .hbm, ⟨44, _⟩ => ⟨S64x256x256, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_call0_cst : Ref sig .tc := ⟨.hbm, 9, rfl⟩
abbrev main_call0_v0 : Ref sig .tc := ⟨.hbm, 10, rfl⟩
abbrev main_v8 : Ref sig .tc := ⟨.hbm, 11, rfl⟩
abbrev main_call1_cst : Ref sig .tc := ⟨.hbm, 12, rfl⟩
abbrev main_call1_v0 : Ref sig .tc := ⟨.hbm, 13, rfl⟩
abbrev main_v9 : Ref sig .tc := ⟨.hbm, 14, rfl⟩
abbrev main_v10 : Ref sig .tc := ⟨.hbm, 15, rfl⟩
abbrev main_call2_cst : Ref sig .tc := ⟨.hbm, 16, rfl⟩
abbrev main_call2_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call3_cst : Ref sig .tc := ⟨.hbm, 24, rfl⟩
abbrev main_call3_v0 : Ref sig .tc := ⟨.hbm, 25, rfl⟩
abbrev main_v17 : Ref sig .tc := ⟨.hbm, 26, rfl⟩
abbrev main_call4_cst : Ref sig .tc := ⟨.hbm, 27, rfl⟩
abbrev main_call4_v0 : Ref sig .tc := ⟨.hbm, 28, rfl⟩
abbrev main_v18 : Ref sig .tc := ⟨.hbm, 29, rfl⟩
abbrev main_v19 : Ref sig .tc := ⟨.hbm, 30, rfl⟩
abbrev main_call5_cst : Ref sig .tc := ⟨.hbm, 31, rfl⟩
abbrev main_call5_v0 : Ref sig .tc := ⟨.hbm, 32, rfl⟩
abbrev main_v20 : Ref sig .tc := ⟨.hbm, 33, rfl⟩
abbrev main_v21 : Ref sig .tc := ⟨.hbm, 34, rfl⟩
abbrev main_call6_cst : Ref sig .tc := ⟨.hbm, 35, rfl⟩
abbrev main_call6_v0 : Ref sig .tc := ⟨.hbm, 36, rfl⟩
abbrev main_v22 : Ref sig .tc := ⟨.hbm, 37, rfl⟩
abbrev main_call7_cst : Ref sig .tc := ⟨.hbm, 38, rfl⟩
abbrev main_call7_v0 : Ref sig .tc := ⟨.hbm, 39, rfl⟩
abbrev main_v23 : Ref sig .tc := ⟨.hbm, 40, rfl⟩
abbrev main_v24 : Ref sig .tc := ⟨.hbm, 41, rfl⟩
abbrev main_call8_cst : Ref sig .tc := ⟨.hbm, 42, rfl⟩
abbrev main_call8_v0 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  shapeCasts_S64x512x512_S64x256x2x256x2 : S64x512x512.ShapeCasts S64x256x2x256x2
  transposes_S64x256x2x256x2_S64x256x256x2x2_0_1_3_2_4 : S64x256x2x256x2.Transposes [0, 1, 3, 2, 4] S64x256x256x2x2
  shapeCasts_S64x256x256x2x2_S64x256x256x4 : S64x256x256x2x2.ShapeCasts S64x256x256x4
  slices_S64x256x256x4_S64x256x256x1_0_0_0_0 : S64x256x256x4.Slices ![0, 0, 0, 0] S64x256x256x1
  shapeCasts_S64x256x256x1_S64x256x256 : S64x256x256x1.ShapeCasts S64x256x256
  slices_S64x256x256x4_S64x256x256x1_0_0_0_1 : S64x256x256x4.Slices ![0, 0, 0, 1] S64x256x256x1
  bcast_S_S64x256x256 : S_.BroadcastsInDim S64x256x256 (![] : Fin 0 → Fin S64x256x256.rank)
  slices_S64x256x256x4_S64x256x256x1_0_0_0_2 : S64x256x256x4.Slices ![0, 0, 0, 2] S64x256x256x1
  slices_S64x256x256x4_S64x256x256x1_0_0_0_3 : S64x256x256x4.Slices ![0, 0, 0, 3] S64x256x256x1

variable [Facts₀]

class Facts : Prop extends Facts₀ where

variable [Facts]
-- ==== Proof.Spec.lean ====
/-
  The 2×2, stride-2 pooling network as ONE function of the argument array, index by index, on the
  extended reals, and the law that joins its two spellings.

  The pair network is `pm a b = max (a − b) 0 + max b 0`.  One program wraps every pair in a further
  `max · 0`; a sum of two non-negative extended reals is non-negative, so that outer maximum changes
  nothing (`max_pm_zero`), at every extended real, the infinities included: no finiteness is used.

  A window `(c, oh, ow)` of the `[64, 512, 512]` array holds the four entries
  `(c, 2·oh + a, 2·ow + b)`, `a, b ∈ {0, 1}`; the tournament pairs the columns first
  (`b = 0` against `b = 1`), then the two rows: `win x00 x01 x10 x11 = pm (pm x00 x01) (pm x10 x11)`.

  Read as a matrix of `n` rows of 1024 — row `R = 256·c + oh` holding array row `2·oh` in its columns
  `0 … 511` and array row `2·oh + 1` in its columns `512 … 1023` — the same window is the entries
  `(R, 2·ow)`, `(R, 2·ow + 1)`, `(R, 512 + 2·ow)`, `(R, 512 + 2·ow + 1)`: `poolRows`.
-/
import Idealize.ShloMosaic.PureOps.Ideal
import Idealize.ShloMosaic.Lib.ValueIdx

noncomputable section

namespace Cert.Pool

open Idealize.ShloMosaic Idealize.ShloMosaic.ValueIdx

/-- The pair network: `max (a − b) 0 + max b 0`. -/
def pm (a b : EReal) : EReal := max (a - b) 0 + max b 0

theorem pm_nonneg (a b : EReal) : 0 ≤ pm a b :=
  add_nonneg (le_max_right _ _) (le_max_right _ _)

/-- The pair network is non-negative, so a further `max · 0` is the identity on it. -/
theorem max_pm_zero (a b : EReal) : max (pm a b) 0 = pm a b :=
  max_eq_left (pm_nonneg a b)

/-- The tournament over one window: the column pairs first, then the two rows. -/
def win (x00 x01 x10 x11 : EReal) : EReal := pm (pm x00 x01) (pm x10 x11)

/-- The pooled matrix of a matrix of `n` rows of 1024: entry `(R, j)` is the tournament over the
    entries `(R, 2j)`, `(R, 2j + 1)`, `(R, 512 + 2j)`, `(R, 512 + 2j + 1)`. -/
def poolRows (n : Nat) (X : (⟨2, ![n, 1024]⟩ : Shape).Idx → EReal) : (⟨2, ![n, 256]⟩ : Shape).Idx → EReal :=
  fun i =>
    win (X (ix2 (i 0) (⟨2 * (i 1).val, by have := (i 1).isLt; simp at this; omega⟩ : Fin 1024)))
        (X (ix2 (i 0) (⟨2 * (i 1).val + 1, by have := (i 1).isLt; simp at this; omega⟩ : Fin 1024)))
        (X (ix2 (i 0) (⟨512 + 2 * (i 1).val, by have := (i 1).isLt; simp at this; omega⟩ : Fin 1024)))
        (X (ix2 (i 0) (⟨512 + 2 * (i 1).val + 1, by have := (i 1).isLt; simp at this; omega⟩ : Fin 1024)))

/-- The pooled array of a `[64, 512, 512]` array: entry `(c, oh, ow)` is the tournament over the
    window `(c, 2·oh + a, 2·ow + b)`. -/
def pool (x : (⟨3, ![64, 512, 512]⟩ : Shape).Idx → EReal) : (⟨3, ![64, 256, 256]⟩ : Shape).Idx → EReal :=
  fun i =>
    win (x (ix3 (i 0) (⟨2 * (i 1).val, by have := (i 1).isLt; simp at this; omega⟩ : Fin 512)
                      (⟨2 * (i 2).val, by have := (i 2).isLt; simp at this; omega⟩ : Fin 512)))
        (x (ix3 (i 0) (⟨2 * (i 1).val, by have := (i 1).isLt; simp at this; omega⟩ : Fin 512)
                      (⟨2 * (i 2).val + 1, by have := (i 2).isLt; simp at this; omega⟩ : Fin 512)))
        (x (ix3 (i 0) (⟨2 * (i 1).val + 1, by have := (i 1).isLt; simp at this; omega⟩ : Fin 512)
                      (⟨2 * (i 2).val, by have := (i 2).isLt; simp at this; omega⟩ : Fin 512)))
        (x (ix3 (i 0) (⟨2 * (i 1).val + 1, by have := (i 1).isLt; simp at this; omega⟩ : Fin 512)
                      (⟨2 * (i 2).val + 1, by have := (i 2).isLt; simp at this; omega⟩ : Fin 512)))

end Cert.Pool

end
-- ==== Proof.KernelRows.lean ====
/-
  One row group of the pooling body, as a function of the 64 × 1024 rows it loads, and what it holds
  entry by entry.

  The body turns "adjacent columns" into "same lane" by a fixed lane permutation of each 128-lane chunk:
  lane `l` of the permuted chunk is column `2l` of the chunk for `l < 64` and column `2l − 127 = 2(l − 64) + 1`
  from lane 64 on, so the even columns sit in lanes 0–63 and the odd ones in lanes 64–127.  Of two
  adjacent permuted chunks the even halves laid side by side are the columns `o + 2l` of the matrix
  (`l < 128`, `o` the first chunk's offset), the odd halves the columns `o + 2l + 1`; the pair network of
  the two is the pooled column `o/2 + l`.  Two such halves make the 256 pooled columns of a 512-column
  matrix; the pair network of the column stage of the matrix's columns 0–511 (an even array row) against
  that of its columns 512–1023 (the odd array row below it) is the tournament over the 2×2 window.
-/
import proofs.«118153_g7490422964872_pilotgen1_124_11_alg».proof.Proof.Gen.KernelIdeal.Frame
import proofs.«118153_g7490422964872_pilotgen1_124_11_alg».proof.Proof.Spec
import Idealize.ShloMosaic.Lib.Pipeline.Value
import Idealize.ShloMosaic.Lib.ValueIdx
import Idealize.ShloMosaic.PureOps.Ideal.Laws

noncomputable section

namespace Cert.KernelIdeal.PoolValue

open Idealize.ShloMosaic Idealize.ShloMosaic.ValueIdx Cert.KernelIdeal Cert.KernelIdeal.Gen

variable {F : FTy → Type} [FloatOps F]

/-! ## The body's pieces as functions -/

/-- The lane permutation as the body computes it: lane `l` holds `2l` for `l < 64` and `2l − 127` from
    lane 64 on, then the wrap of a negative entry by 128 (none is negative), through the two shape casts
    `[64,128] → [64,128,1] → [64,128]`. -/
def laneSel : IVec S64x128 32 :=
  shapeCast S64x128
    (shapeCast S64x128x1
      (select (cmpi .slt k0_pay2 (broadcast S64x128 0#32)) (addi k0_pay2 (broadcast S64x128 128#32)) k0_pay2)
      shapeCasts_S64x128_S64x128x1)
    shapeCasts_S64x128x1_S64x128

/-- The pair network on vectors: `max (a − b) 0 + max b 0`, entry by entry. -/
def pmv {s : Shape} (a b : FVec F s .f32) : FVec F s .f32 :=
  addf (maximumf (subf a b) (broadcast s (Scalar.ofBits .f32 0x00000000#32)))
       (maximumf b (broadcast s (Scalar.ofBits .f32 0x00000000#32)))

/-- The even halves (lanes 0–63) of two permuted chunks, side by side. -/
def evens (c0 c1 : FVec F S64x128 .f32) : FVec F S64x128 .f32 :=
  concatenate S64x128 1
    [⟨S64x64, extractStridedSlice S64x64 ![0, 0] (dynamicGather 1 c0 laneSel) slices_S64x128_o0_0_S64x64⟩,
     ⟨S64x64, extractStridedSlice S64x64 ![0, 0] (dynamicGather 1 c1 laneSel) slices_S64x128_o0_0_S64x64⟩]
    concatenates_S64x64_S64x64_S64x128_d1

/-- The odd halves (lanes 64–127) of two permuted chunks, side by side. -/
def odds (c0 c1 : FVec F S64x128 .f32) : FVec F S64x128 .f32 :=
  concatenate S64x128 1
    [⟨S64x64, extractStridedSlice S64x64 ![0, 64] (dynamicGather 1 c0 laneSel) slices_S64x128_o0_64_S64x64⟩,
     ⟨S64x64, extractStridedSlice S64x64 ![0, 64] (dynamicGather 1 c1 laneSel) slices_S64x128_o0_64_S64x64⟩]
    concatenates_S64x64_S64x64_S64x128_d1

/-- 128 pooled columns from two adjacent 128-lane chunks. -/
def halfStage (c0 c1 : FVec F S64x128 .f32) : FVec F S64x128 .f32 := pmv (evens c0 c1) (odds c0 c1)

/-- The column stage: the 256 pooled columns of a 512-column matrix, two halves side by side. -/
def colStage (v : FVec F S64x512 .f32) : FVec F S64x256 .f32 :=
  concatenate S64x256 1
    [⟨S64x128, halfStage (extractStridedSlice S64x128 ![0, 0] v slices_S64x512_o0_0_S64x128)
                         (extractStridedSlice S64x128 ![0, 128] v slices_S64x512_o0_128_S64x128)⟩,
     ⟨S64x128, halfStage (extractStridedSlice S64x128 ![0, 256] v slices_S64x512_o0_256_S64x128)
                         (extractStridedSlice S64x128 ![0, 384] v slices_S64x512_o0_384_S64x128)⟩]
    concatenates_S64x128_S64x128_S64x256_d1

/-- One row group: the column stage of the even array rows (columns 0–511 of the matrix) against that of
    the odd array rows (columns 512–1023). -/
def rowGroup (x : Vec F S64x1024 .f32) : FVec F S64x256 .f32 :=
  pmv (colStage (extractStridedSlice S64x512 ![0, 0] (shapeCast S64x1024 x shapeCasts_S64x1024_S64x1024) slices_S64x1024_o0_0_S64x512))
      (colStage (extractStridedSlice S64x512 ![0, 512] (shapeCast S64x1024 x shapeCasts_S64x1024_S64x1024) slices_S64x1024_o0_512_S64x512))

/-! ## The lane permutation, lane by lane -/

/-- Lane `n`'s word of the permutation, as the scalar operations compute it. -/
def laneWord (n : Nat) : BitVec 32 :=
  let w := Scalar.select (IntOp.cmpi .slt (BitVec.ofNat 32 n) 64#32) (IntOp.muli 2#32 (BitVec.ofNat 32 n))
    (IntOp.subi (IntOp.muli 2#32 (BitVec.ofNat 32 n)) 127#32)
  Scalar.select (IntOp.cmpi .slt w 0#32) (IntOp.addi w 128#32) w

/-- Where lane `l` of a permuted chunk reads: column `2l` below lane 64, column `2l − 127` from it on. -/
def perm (l : Fin 128) : Fin 128 := ⟨if l.val < 64 then 2 * l.val else 2 * l.val - 127, by split <;> omega⟩

theorem laneWord_mod : ∀ l : Fin 128, (laneWord l.val).toNat % 128 = (perm l).val := by decide +kernel

theorem laneSel_apply (r : Fin 64) (l : Fin 128) : laneSel (ix2 r l) = laneWord l.val := by
  unfold laneSel
  rw [shapeCast_shapeCast]
  have hi : iota .tc S64x128 32 [1] iota_S64x128_d1_w32 (ix2 r l) = BitVec.ofNat 32 l.val :=
    iota_single_apply .tc S64x128 32 1 _ (ix2 r l)
  unfold k0_pay2
  simp only [select, cmpi, addi, muli, subi, broadcast, hi]
  rfl

/-- A chunk permuted by the body's index vector, at lane `l`, is the chunk at `perm l`. -/
theorem gather_apply {α : Type} (src : S64x128.Idx → α) (r : Fin 64) (l : Fin 128) :
    dynamicGather 1 src laneSel (ix2 r l) = src (ix2 r (perm l)) := by
  unfold dynamicGather
  refine congrArg src (funext fun b => ?_)
  match b with
  | ⟨0, _⟩ => rfl
  | ⟨1, _⟩ =>
    refine Fin.ext ?_
    show (laneSel (ix2 r l)).toNat % 128 = (perm l).val
    rw [laneSel_apply]; exact laneWord_mod l

/-! ## Columns side by side, and a run of columns -/

/-- Two matrices laid side by side, at a column of the first. -/
theorem concat_cols_left {α : Type} {R n1 n2 n : Nat} (x1 : (⟨2, ![R, n1]⟩ : Shape).Idx → α)
    (x2 : (⟨2, ![R, n2]⟩ : Shape).Idx → α)
    (h : Shape.Concatenates [(⟨2, ![R, n1]⟩ : Shape), ⟨2, ![R, n2]⟩] ⟨2, ![R, n]⟩ 1) (r : Fin R) (l : Fin n)
    (hl : l.val < n1) :
    concatenate ⟨2, ![R, n]⟩ 1 [⟨_, x1⟩, ⟨_, x2⟩] h (ix2 r l) = x1 (ix2 r ⟨l.val, hl⟩) :=
  concatenate_pair_apply_left 1 x1 x2 h (ix2 r l) rfl (ix2 r ⟨l.val, hl⟩)
    (fun b => match b with | ⟨0, _⟩ => rfl | ⟨1, _⟩ => rfl)

/-- Two matrices laid side by side, at a column of the second. -/
theorem concat_cols_right {α : Type} {R n1 n2 n : Nat} (x1 : (⟨2, ![R, n1]⟩ : Shape).Idx → α)
    (x2 : (⟨2, ![R, n2]⟩ : Shape).Idx → α)
    (h : Shape.Concatenates [(⟨2, ![R, n1]⟩ : Shape), ⟨2, ![R, n2]⟩] ⟨2, ![R, n]⟩ 1) (r : Fin R) (l : Fin n)
    (hl : n1 ≤ l.val) (hl2 : l.val - n1 < n2) :
    concatenate ⟨2, ![R, n]⟩ 1 [⟨_, x1⟩, ⟨_, x2⟩] h (ix2 r l) = x2 (ix2 r ⟨l.val - n1, hl2⟩) :=
  concatenate_pair_apply_right 1 x1 x2 h (ix2 r l) rfl rfl (ix2 r ⟨l.val - n1, hl2⟩)
    (fun b hb => match b, hb with | ⟨0, _⟩, _ => rfl | ⟨1, _⟩, hb => absurd rfl hb)
    (by show (l.val - n1) + n1 = l.val; omega)

/-- A run of `k` columns from column `o`, at its column `l`. -/
theorem slice_cols_apply {α : Type} {R n k : Nat} (o : Nat) (x : (⟨2, ![R, n]⟩ : Shape).Idx → α)
    (h : (⟨2, ![R, n]⟩ : Shape).Slices ![0, o] ⟨2, ![R, k]⟩) (r : Fin R) (l : Fin k) (hl : o + l.val < n) :
    extractStridedSlice ⟨2, ![R, k]⟩ ![0, o] x h (ix2 r l) = x (ix2 r ⟨o + l.val, hl⟩) :=
  extractStridedSlice_apply _ x h (ix2 r l) (ix2 r ⟨o + l.val, hl⟩)
    (fun a => match a with | ⟨0, _⟩ => (by show r.val = 0 + r.val; omega) | ⟨1, _⟩ => rfl)

/-! ## Even and odd halves of two permuted chunks -/

/-- The even halves side by side: lane `l` is column `2l` of the first chunk below lane 64, column
    `2(l − 64)` of the second from it on. -/
theorem evens_apply (c0 c1 : FVec F S64x128 .f32) (r : Fin 64) (l : Fin 128) :
    evens c0 c1 (ix2 r l) = if h : l.val < 64 then c0 (ix2 r ⟨2 * l.val, by omega⟩)
      else c1 (ix2 r ⟨2 * (l.val - 64), by omega⟩) := by
  unfold evens
  by_cases h : l.val < 64
  · rw [dif_pos h, concat_cols_left _ _ _ r l h, slice_cols_apply 0 _ _ r ⟨l.val, h⟩ (by show 0 + l.val < 128; omega),
      gather_apply]
    exact congrArg (fun k => c0 (ix2 r k)) (Fin.ext (by show (if 0 + l.val < 64 then 2 * (0 + l.val) else 2 * (0 + l.val) - 127) = 2 * l.val; rw [if_pos (by omega)]; omega))
  · rw [dif_neg h, concat_cols_right _ _ _ r l (by omega) (by omega),
      slice_cols_apply 0 _ _ r ⟨l.val - 64, by omega⟩ (by show 0 + (l.val - 64) < 128; omega), gather_apply]
    exact congrArg (fun k => c1 (ix2 r k)) (Fin.ext (by show (if 0 + (l.val - 64) < 64 then 2 * (0 + (l.val - 64)) else 2 * (0 + (l.val - 64)) - 127) = 2 * (l.val - 64); rw [if_pos (by omega)]; omega))

/-- The odd halves side by side: lane `l` is column `2l + 1` of the first chunk below lane 64, column
    `2(l − 64) + 1` of the second from it on. -/
theorem odds_apply (c0 c1 : FVec F S64x128 .f32) (r : Fin 64) (l : Fin 128) :
    odds c0 c1 (ix2 r l) = if h : l.val < 64 then c0 (ix2 r ⟨2 * l.val + 1, by omega⟩)
      else c1 (ix2 r ⟨2 * (l.val - 64) + 1, by omega⟩) := by
  unfold odds
  by_cases h : l.val < 64
  · rw [dif_pos h, concat_cols_left _ _ _ r l h, slice_cols_apply 64 _ _ r ⟨l.val, h⟩ (by show 64 + l.val < 128; omega),
      gather_apply]
    exact congrArg (fun k => c0 (ix2 r k)) (Fin.ext (by show (if 64 + l.val < 64 then 2 * (64 + l.val) else 2 * (64 + l.val) - 127) = 2 * l.val + 1; rw [if_neg (by omega)]; omega))
  · rw [dif_neg h, concat_cols_right _ _ _ r l (by omega) (by omega),
      slice_cols_apply 64 _ _ r ⟨l.val - 64, by omega⟩ (by show 64 + (l.val - 64) < 128; omega), gather_apply]
    exact congrArg (fun k => c1 (ix2 r k)) (Fin.ext (by show (if 64 + (l.val - 64) < 64 then 2 * (64 + (l.val - 64)) else 2 * (64 + (l.val - 64)) - 127) = 2 * (l.val - 64) + 1; rw [if_neg (by omega)]; omega))

/-! ## At the ideal instance: the stages entry by entry -/

/-- The pair network on vectors, at the ideal instance, is the pair network of the entries. -/
theorem pmv_apply {s : Shape} (a b : FVec Ideal s .f32) (i : s.Idx) : pmv a b i = Cert.Pool.pm (a i) (b i) := by
  show (max (a i - b i) (Ideal.ofBits .f32 0x00000000#32) + max (b i) (Ideal.ofBits .f32 0x00000000#32) : EReal) = _
  rw [Ideal.ofBits_zero_f32]; rfl

/-- Equal column numbers name one entry. -/
theorem col_congr {α : Type} {R n : Nat} (v : (⟨2, ![R, n]⟩ : Shape).Idx → α) (r : Fin R) {a b : Nat} (ha : a < n)
    (hb : b < n) (h : a = b) : v (ix2 r ⟨a, ha⟩) = v (ix2 r ⟨b, hb⟩) := by subst h; rfl

/-- Two adjacent 128-column chunks of a matrix, from column `o`: pooled column `l` is the pair network of the
    matrix's columns `o + 2l` and `o + 2l + 1`. -/
theorem halfStage_apply (v : FVec Ideal S64x512 .f32) (o o1 : Nat) (ho1 : o1 = o + 128) (ho : o + 256 ≤ 512)
    (c0 c1 : FVec Ideal S64x128 .f32)
    (h0 : ∀ (r : Fin 64) (k : Fin 128), c0 (ix2 r k) = v (ix2 r ⟨o + k.val, by omega⟩))
    (h1 : ∀ (r : Fin 64) (k : Fin 128), c1 (ix2 r k) = v (ix2 r ⟨o1 + k.val, by omega⟩))
    (r : Fin 64) (l : Fin 128) :
    halfStage c0 c1 (ix2 r l)
      = Cert.Pool.pm (v (ix2 r ⟨o + 2 * l.val, by omega⟩)) (v (ix2 r ⟨o + 2 * l.val + 1, by omega⟩)) := by
  unfold halfStage
  rw [pmv_apply, evens_apply, odds_apply]
  by_cases h : l.val < 64
  · rw [dif_pos h, dif_pos h, h0, h0]
    exact congrArg₂ Cert.Pool.pm
      (col_congr v r _ _ (by show o + 2 * l.val = o + 2 * l.val; omega))
      (col_congr v r _ _ (by show o + (2 * l.val + 1) = o + 2 * l.val + 1; omega))
  · rw [dif_neg h, dif_neg h, h1, h1]
    exact congrArg₂ Cert.Pool.pm
      (col_congr v r _ _ (by show o1 + 2 * (l.val - 64) = o + 2 * l.val; omega))
      (col_congr v r _ _ (by show o1 + (2 * (l.val - 64) + 1) = o + 2 * l.val + 1; omega))

/-- The column stage: pooled column `j` is the pair network of columns `2j` and `2j + 1`. -/
theorem colStage_apply (v : FVec Ideal S64x512 .f32) (r : Fin 64) (j : Fin 256) :
    colStage v (ix2 r j)
      = Cert.Pool.pm (v (ix2 r ⟨2 * j.val, by omega⟩)) (v (ix2 r ⟨2 * j.val + 1, by omega⟩)) := by
  unfold colStage
  by_cases h : j.val < 128
  · rw [concat_cols_left _ _ _ r j h,
      halfStage_apply v 0 128 rfl (by omega) _ _ (fun r k => slice_cols_apply 0 v _ r k (by omega))
        (fun r k => slice_cols_apply 128 v _ r k (by omega)) r ⟨j.val, h⟩]
    exact congrArg₂ Cert.Pool.pm (col_congr v r _ _ (by show 0 + 2 * j.val = 2 * j.val; omega))
      (col_congr v r _ _ (by show 0 + 2 * j.val + 1 = 2 * j.val + 1; omega))
  · rw [concat_cols_right _ _ _ r j (by omega) (by omega),
      halfStage_apply v 256 384 rfl (by omega) _ _ (fun r k => slice_cols_apply 256 v _ r k (by omega))
        (fun r k => slice_cols_apply 384 v _ r k (by omega)) r ⟨j.val - 128, by omega⟩]
    exact congrArg₂ Cert.Pool.pm (col_congr v r _ _ (by show 256 + 2 * (j.val - 128) = 2 * j.val; omega))
      (col_congr v r _ _ (by show 256 + 2 * (j.val - 128) + 1 = 2 * j.val + 1; omega))

/-- One row group holds the pooled matrix of the rows it loads. -/
theorem rowGroup_apply (x : Vec Ideal S64x1024 .f32) (y : S64x256.Idx) :
    rowGroup x y = Cert.Pool.poolRows 64 x y := by
  obtain ⟨r, j, rfl⟩ : ∃ (r : Fin 64) (j : Fin 256), y = ix2 r j := ⟨y 0, y 1, eq_ix2 y⟩
  unfold rowGroup
  rw [pmv_apply, colStage_apply, colStage_apply, shapeCast_self,
    slice_cols_apply 0 x _ r ⟨2 * j.val, by omega⟩ (by show 0 + 2 * j.val < 1024; omega),
    slice_cols_apply 0 x _ r ⟨2 * j.val + 1, by omega⟩ (by show 0 + (2 * j.val + 1) < 1024; omega),
    slice_cols_apply 512 x _ r ⟨2 * j.val, by omega⟩ (by show 512 + 2 * j.val < 1024; omega),
    slice_cols_apply 512 x _ r ⟨2 * j.val + 1, by omega⟩ (by show 512 + (2 * j.val + 1) < 1024; omega)]
  unfold Cert.Pool.poolRows Cert.Pool.win
  exact congrArg₂ Cert.Pool.pm
    (congrArg₂ Cert.Pool.pm (col_congr x r _ _ (by show 0 + 2 * j.val = 2 * j.val; omega))
      (col_congr x r _ _ (by show 0 + (2 * j.val + 1) = 2 * j.val + 1; omega)))
    (congrArg₂ Cert.Pool.pm (col_congr x r _ _ (by show 512 + 2 * j.val = 512 + 2 * j.val; omega))
      (col_congr x r _ _ (by show 512 + (2 * j.val + 1) = 512 + 2 * j.val + 1; omega)))

end Cert.KernelIdeal.PoolValue

end
-- ==== Proof.KernelBlock.lean ====
/-
  What the body leaves in the output block: the pooled matrix of the input block.

  The body works through its 256 × 1024 input block in four groups of 64 rows; group `g` loads rows
  `64g … 64g + 63`, pools them (`rowGroup`) and stores the 64 × 256 result at rows `64g …` of the output
  block.  Each store is therefore the restriction of ONE function of the block index — the pooled matrix of
  the whole input block — to the rows it covers, and the four stores cover the block.
-/
import proofs.«118153_g7490422964872_pilotgen1_124_11_alg».proof.Proof.KernelRows
import Idealize.ShloMosaic.Lib.Pipeline.Value

noncomputable section

namespace Cert.KernelIdeal.PoolValue

open Idealize.ShloMosaic Idealize.ShloMosaic.ValueIdx Cert.KernelIdeal Cert.KernelIdeal.Gen

/-- The output block as its four stores, each the row group of the rows loaded for it. -/
theorem out_block_pieces {F : FTy → Type} [FloatOps F] (x0 : Vec F S256x1024 .f32) :
    out0_1 x0 = View.canon [⟨r0_7, rowGroup (View.ld x0 r0_6)⟩, ⟨r0_5, rowGroup (View.ld x0 r0_4)⟩,
      ⟨r0_3, rowGroup (View.ld x0 r0_2)⟩, ⟨r0_1, rowGroup (View.ld x0 r0_0)⟩] := rfl

/-- Rows `o … o + 63` of a 256-row matrix, pooled, are rows `o … o + 63` of the pooled matrix. -/
theorem group_rows (x0 : Vec Ideal S256x1024 .f32) (o : Nat)
    (inbL : ∀ a, (![o, 0] : Fin 2 → Nat) a + S64x1024.size a ≤ S256x1024.size a)
    (inbS : ∀ a, (![o, 0] : Fin 2 → Nat) a + S64x256.size a ≤ S256x256.size a) (y : S64x256.Idx) :
    rowGroup (View.ld x0 (Rect.unit (s := S256x1024) ![o, 0] S64x1024.size inbL)) y
      = Cert.Pool.poolRows 256 x0 ((Rect.unit (s := S256x256) ![o, 0] S64x256.size inbS).emb y) := by
  obtain ⟨r, j, rfl⟩ : ∃ (r : Fin 64) (j : Fin 256), y = ix2 r j := ⟨y 0, y 1, eq_ix2 y⟩
  rw [rowGroup_apply]
  unfold Cert.Pool.poolRows Cert.Pool.win
  refine congrArg₂ Cert.Pool.pm (congrArg₂ Cert.Pool.pm ?_ ?_) (congrArg₂ Cert.Pool.pm ?_ ?_)
  · refine congrArg x0 (funext fun a => Fin.ext ?_)
    match a with
    | ⟨0, _⟩ => rfl
    | ⟨1, _⟩ => show 0 + 1 * (2 * j.val) = 2 * (0 + 1 * j.val); omega
  · refine congrArg x0 (funext fun a => Fin.ext ?_)
    match a with
    | ⟨0, _⟩ => rfl
    | ⟨1, _⟩ => show 0 + 1 * (2 * j.val + 1) = 2 * (0 + 1 * j.val) + 1; omega
  · refine congrArg x0 (funext fun a => Fin.ext ?_)
    match a with
    | ⟨0, _⟩ => rfl
    | ⟨1, _⟩ => show 0 + 1 * (512 + 2 * j.val) = 512 + 2 * (0 + 1 * j.val); omega
  · refine congrArg x0 (funext fun a => Fin.ext ?_)
    match a with
    | ⟨0, _⟩ => rfl
    | ⟨1, _⟩ => show 0 + 1 * (512 + 2 * j.val + 1) = 512 + 2 * (0 + 1 * j.val) + 1; omega

/-- What the body leaves in the output block, entry by entry: the pooled matrix of the input block. -/
theorem out_block_apply (x0 : Vec Ideal S256x1024 .f32) (y : S256x256.Idx) :
    out0_1 (F := Ideal) x0 y = Cert.Pool.poolRows 256 x0 y := by
  rw [out_block_pieces]
  refine View.canon_apply_of_pieces (Val := Elt Ideal) (e := .f32) (Cert.Pool.poolRows 256 x0 : S256x256.Idx → Elt Ideal .f32) _ ?_ y
    (cover0_1 _ _ _ _ y)
  intro p hp x
  simp only [List.mem_cons, List.mem_nil_iff, or_false] at hp
  rcases hp with rfl | rfl | rfl | rfl
  · exact group_rows x0 192 inb_S256x1024_S64x1024_192_0 inb_S256x256_S64x256_192_0 x
  · exact group_rows x0 128 inb_S256x1024_S64x1024_128_0 inb_S256x256_S64x256_128_0 x
  · exact group_rows x0 64 inb_S256x1024_S64x1024_64_0 inb_S256x256_S64x256_64_0 x
  · exact group_rows x0 0 inb_S256x1024_S64x1024_0_0 inb_S256x256_S64x256_0_0 x

end Cert.KernelIdeal.PoolValue

end
-- ==== Proof.KernelArray.lean ====
/-
  From the output block to the result array, and the run.

  The program reads the argument array `x : [64, 512, 512]` as a matrix `X` of 16384 rows of 1024 (row
  `R = 256·c + oh` holds array rows `2·oh` and `2·oh + 1` of channel `c` side by side), pools it in 64 blocks of
  256 rows — point `t` reads rows `256·t … 256·t + 255` of `X` and writes the same rows of the pooled matrix —, and
  reads the pooled matrix of 16384 rows of 256 back as an array `[64, 256, 256]`.

  * `entry_matrix`: the matrix the region finds is the row-major reading of the argument;
  * `result_matrix`: after the region the result matrix is `poolRows 16384 X` — what a point writes back is its block
    of that ONE function (`flushed_eq`, from the block law `out_block_apply` and the input block read where the output's
    rows say), and the 64 blocks cover the matrix (row `R` is in the block of point `R / 256`);
  * `pool_of_matrix`: the pooled matrix read back as an array is `pool x` — row-major positions only;
  * `run`: the program's run with the result array at `pool` of the argument and the argument unchanged.
-/
import proofs.«118153_g7490422964872_pilotgen1_124_11_alg».proof.Proof.KernelBlock
import Idealize.ShloMosaic.Lib.Pipeline.Value
import Idealize.ShloMosaic.Lib.ValueIdx
import Idealize.ShloMosaic.Lib.ValueIdxCoords

noncomputable section

namespace Cert.KernelIdeal.PoolValue

open Idealize.ShloMosaic Idealize.ShloMosaic.ValueIdx Idealize.ShloMosaic.TcCoe Idealize.SL.Sem
open Cert.KernelIdeal Cert.KernelIdeal.Gen
open Idealize.ShloMosaic.Pipeline (Dat)

/-- The matrix reading of the array at an entry: entry `(R, q)` of the `[16384, 1024]` reading is the array's entry
    with the same row-major position. -/
theorem matrix_entry (x : S64x512x512.Idx → EReal) (c : Fin 64) (h w : Fin 512) (R : Fin 16384) (q : Fin 1024)
    (hpos : (c.val * 512 + h.val) * 512 + w.val = R.val * 1024 + q.val) :
    shapeCast S16384x1024 x shapeCasts_S64x512x512_S16384x1024 (ix2 R q) = x (ix3 c h w) :=
  shapeCast_apply x _ _ _ (by rw [Shape.rowMajor_val_three, Shape.rowMajor_val_two]; simp; omega)

/-- Pooling the matrix reading of an array, then reading the pooled matrix as an array, is pooling the array:
    matrix row `R = 256·c + oh` holds array rows `2·oh` (columns `0 … 511`) and `2·oh + 1` (columns `512 … 1023`)
    of channel `c`, so the matrix window `(R, 2·ow), (R, 2·ow + 1), (R, 512 + 2·ow), (R, 512 + 2·ow + 1)` is the
    array window `(c, 2·oh + a, 2·ow + b)`. -/
theorem pool_of_matrix (x : S64x512x512.Idx → EReal) :
    shapeCast S64x256x256 (Cert.Pool.poolRows 16384 (shapeCast S16384x1024 x shapeCasts_S64x512x512_S16384x1024))
      shapeCasts_S16384x256_S64x256x256 = Cert.Pool.pool x := by
  funext i
  obtain ⟨c, oh, ow, rfl⟩ : ∃ (c : Fin 64) (oh : Fin 256) (ow : Fin 256), i = ix3 c oh ow := ⟨i 0, i 1, i 2, eq_ix3 i⟩
  have hc := c.isLt; have hoh := oh.isLt; have how := ow.isLt
  rw [shapeCast_apply _ shapeCasts_S16384x256_S64x256x256 (ix3 c oh ow) (ix2 (⟨256 * c.val + oh.val, by omega⟩ : Fin 16384) ow)
    (by rw [Shape.rowMajor_val_two, Shape.rowMajor_val_three]; simp; omega)]
  unfold Cert.Pool.poolRows Cert.Pool.pool
  simp only [ix2_0, ix2_1, ix3_0, ix3_1, ix3_2]
  refine congr (congr (congr (congrArg Cert.Pool.win ?_) ?_) ?_) ?_
  all_goals exact matrix_entry x _ _ _ _ _ (by simp only []; omega)

variable (m : (ℓ : Loc nD τ sig) → Buf (Elt Ideal) ℓ) (ρ : Dev nD → PrngReg)

/-! ## The matrix the region finds -/

/-- The one host line before the region reads the argument array as a matrix of 16384 rows of 1024. -/
theorem entry_matrix (c : Dev nD) :
    (V m c main_v0 : S16384x1024.Idx → EReal)
      = shapeCast S16384x1024 (m ((c.tc : Thread nD τ).loc main_arg0)) shapeCasts_S64x512x512_S16384x1024 := by
  show StableHlo.after hostOps0 (fun b => m (c, b)) (Proc.devRef .tc main_v0) = _
  after_results
  rfl

/-- That matrix, at its literal type. -/
abbrev xmat (c : Dev nD) : S16384x1024.Idx → EReal := V m c main_v0

/-! ## From the output block to the pooled matrix -/

/-- The printed index maps over the 64 points: both windows' block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point `t` is rows `256·t … 256·t + 255` of the matrix. -/
theorem in_block_apply (c : Dev nD) (t : Fin cfg0.N) (p : Fin 256) (q : Fin 1024) (R : Fin 16384)
    (hR : R.val = 256 * t.val + p.val) :
    (iblk m c 0 t : Vec Ideal S256x1024 .f32) (ix2 p q) = xmat m c (ix2 R q) := by
  obtain ⟨e0, e1, -, -⟩ := idx_facts t
  unfold iblk
  rw [View.read_apply]
  show V m c main_v0 _ = V m c main_v0 _
  congr 1
  funext a
  apply Fin.ext
  match a with
  | ⟨0, _⟩ => show win0_0.index t (0 : Fin 2) * 256 + 1 * p.val = R.val; omega
  | ⟨1, _⟩ => show win0_0.index t (1 : Fin 2) * 1024 + 1 * q.val = q.val; omega

/-- WHAT POINT `t` WRITES BACK is block `t` of the pooled matrix: row `p` of the output block pools row `p` of the
    input block, which is row `256·t + p` of the matrix, and the output block sits at rows `256·t …` too. -/
theorem flushed_eq (c : Dev nD) (t : Fin cfg0.N) :
    (dats m 0 c).flushed 1 t = ((cfg0.win 1).blk t).view.read (Elt Ideal) (Cert.Pool.poolRows 16384 (xmat m c)) := by
  show (cfg0.win 1).cut (grid0.coords t) ((dats m 0 c).after 1 t) = _
  rw [after0_1]
  obtain ⟨-, -, e2, e3⟩ := idx_facts t
  have ht : t.val < 64 := lt_of_lt_of_eq t.isLt N_0
  funext j
  obtain ⟨p, q, rfl⟩ : ∃ (p : Fin 256) (q : Fin 256), j = ix2 p q := ⟨j 0, j 1, eq_ix2 j⟩
  have hp := p.isLt
  show out0_1 (F := Ideal) (iblk m c 0 t) (ix2 p q)
    = Cert.Pool.poolRows 16384 (xmat m c) (((cfg0.win 1).blk t).view.emb (ix2 p q))
  rw [out_block_apply]
  have hemb : ((cfg0.win 1).blk t).view.emb (ix2 p q) = ix2 (⟨256 * t.val + p.val, by omega⟩ : Fin 16384) q := by
    funext a
    apply Fin.ext
    match a with
    | ⟨0, _⟩ => show win0_1.index t (0 : Fin 2) * 256 + 1 * p.val = 256 * t.val + p.val; omega
    | ⟨1, _⟩ => show win0_1.index t (1 : Fin 2) * 256 + 1 * q.val = q.val; omega
  rw [hemb]
  unfold Cert.Pool.poolRows
  simp only [ix2_0, ix2_1]
  refine congr (congr (congr (congrArg Cert.Pool.win ?_) ?_) ?_) ?_
  all_goals exact in_block_apply m c t _ _ _ rfl

/-- A row index is in point `t`'s block iff each coordinate is in the block's range on its axis. -/
theorem mem_blk (t : Fin cfg0.N) (i : S16384x256.Idx) :
    i ∈ ((cfg0.win 1).blk t).view.set ↔ ∀ a : Fin 2, win0_1.index t a * S256x256.size a ≤ (i a).val
      ∧ (i a).val < win0_1.index t a * S256x256.size a + S256x256.size a := by
  show i ∈ ((View.whole main_v1).slice (win0_1.rect t)).set ↔ _
  rw [View.set_slice_whole, Rect.mem_set_unit]
  exact Iff.rfl

/-- The blocks cover the pooled matrix: row `R` is in the block of point `R / 256`. -/
theorem cover (i : S16384x256.Idx) :
    ∃ t : Fin cfg0.N, (cfg0.win 1).flush t = true ∧ i ∈ ((cfg0.win 1).blk t).view.set := by
  have hi0 : (i 0).val < 16384 := (i 0).isLt
  have hi1 : (i 1).val < 256 := (i 1).isLt
  obtain ⟨t, htv⟩ : ∃ t : Fin cfg0.N, t.val = (i 0).val / 256 :=
    ⟨⟨(i 0).val / 256, by rw [show cfg0.N = 64 from N_0]; omega⟩, rfl⟩
  obtain ⟨-, -, e2, e3⟩ := idx_facts t
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 256 ≤ (i 1).val ∧ (i 1).val < win0_1.index t (1 : Fin 2) * 256 + 256
    omega

/-- THE RESULT MATRIX after the region: the pooled matrix of the matrix the region finds. -/
theorem result_matrix (c : Dev nD) :
    (dats m 0 c).arrAt 1 cfg0.N = Cert.Pool.poolRows 16384 (V m c main_v0) :=
  (dats m 0 c).arrAt_eq_of_cover 1 (Cert.Pool.poolRows 16384 (xmat m c)) (fun t _ => flushed_eq m c t) cover

/-! ## The run -/

/-- The host line after the region reads the pooled matrix as a `[64, 256, 256]` array: the pooled array. -/
theorem result_array (c : Dev nD) :
    Pipeline.afterTail₀ cfgs (dats m) 0 (V0 m) [hostOps1] c main_v2
      = Cert.Pool.pool (m ((c.tc : Thread nD τ).loc main_arg0)) := by
  unfold Pipeline.afterTail₀
  show StableHlo.after hostOps1 _ (Proc.devRef .tc main_v2) = _
  after_results
  rw [Pipeline.withArrays_arr spec0 launch0.win.arr_inj c _ _ 1, result_matrix, entry_matrix]
  exact pool_of_matrix _

/-- Every weakly fair execution of the program terminates with the result array at the pooled array of the argument,
    the argument as launched. -/
theorem run : θ_run defs (onTc (τ := τ) (main (F := Ideal))) ⟨m, fun _ => 0, ρ⟩ (fun r => ∀ c : Dev nD,
      r.2.mem ((c.tc : Thread nD τ).loc main_v2) = Cert.Pool.pool (m ((c.tc : Thread nD τ).loc main_arg0))
      ∧ r.2.mem ((c.tc : Thread nD τ).loc main_arg0) = m ((c.tc : Thread nD τ).loc main_arg0)) :=
  (θ_run defs _ _).mono (fun _ h c =>
    ⟨((h c).2 main_v2 (Pipeline.mem_restRefs_of main_v2 (by decide) (by decide))).trans (result_array m c),
     ((h c).2 main_arg0 (Pipeline.mem_restRefs_of main_arg0 (by decide) (by decide))).trans (W_main_arg0 m (dats m) c)⟩)
    (run_main m ρ)

end Cert.KernelIdeal.PoolValue

end
-- ==== Proof.RefValue.lean ====
/-
  The reference program's result, at the ideal instance, is the pooling network of the specification.

  The reference regroups the argument `x : [64, 512, 512]` as `[64, 256, 2, 256, 2]`, exchanges the two middle
  axes and flattens the two last ones: entry `(c, oh, ow, k)` of the regrouped `[64, 256, 256, 4]` array, with
  `k = 2·a + b`, is `x (c, 2·oh + a, 2·ow + b)` (`regrouped_at`).  Its four slices `k = 0, 1, 2, 3`, each with
  the unit axis dropped, are therefore the four entries of the window `(c, oh, ow)` (`slice0_at` … `slice3_at`).
  On them the reference computes the pair network `max (a − b) 0 + max b 0` as a tournament — the column pairs
  first, then the two rows — with every pair wrapped in one more `max · 0`; a sum of two non-negative extended
  reals is non-negative, so that outer maximum is the identity (`Cert.Pool.max_pm_zero`), and what is left is
  `Cert.Pool.win` of the four window entries (`tournament`), which is `Cert.Pool.pool` (`ref_eq`).
-/
import proofs.«118153_g7490422964872_pilotgen1_124_11_alg».proof.Proof.Gen.ReferenceIdeal.Read
import proofs.«118153_g7490422964872_pilotgen1_124_11_alg».proof.Proof.Spec
import Idealize.ShloMosaic.Lib.ValueIdx
import Idealize.ShloMosaic.PureOps.Ideal
import Idealize.ShloMosaic.PureOps.Ideal.Laws

noncomputable section

namespace Cert.ReferenceIdeal.PoolValue

open Cert.ReferenceIdeal Cert.ReferenceIdeal.Gen Cert.ReferenceIdeal.Read
open Idealize.ShloMosaic Idealize.ShloMosaic.ValueIdx

/-! ## The regrouped array and its four slices, at an index -/

/-- The regrouped array at `(c, oh, ow, 2·a + b)`, `a, b < 2`, is the argument at `(c, 2·oh + a, 2·ow + b)`: the
    flat position `((c·256 + oh)·256 + ow)·4 + (2·a + b)` splits as `(c, oh, ow, a, b)`, the exchange of the two
    middle axes gives `(c, oh, a, ow, b)`, and its flat position `(((c·256 + oh)·2 + a)·256 + ow)·2 + b` is
    `(c·512 + (2·oh + a))·512 + (2·ow + b)`. -/
theorem regrouped_at (x : (⟨S64x512x512, .f32⟩ : BufTy).Contents (Elt Ideal)) (c : Fin 64) (oh ow : Fin 256)
    (a b : Nat) (ha : a < 2) (hb : b < 2) :
    val_main_v2 (F := Ideal) x (ix4 c oh ow (⟨2 * a + b, by omega⟩ : Fin 4))
      = x (ix3 c (⟨2 * oh.val + a, by omega⟩ : Fin 512) (⟨2 * ow.val + b, by omega⟩ : Fin 512)) := by
  have hc : c.val < 64 := c.isLt
  have hoh : oh.val < 256 := oh.isLt
  have how : ow.val < 256 := ow.isLt
  have e0 : (((c.val * 256 + oh.val) * 256 + ow.val) * 4 + (2 * a + b)) / 262144 = c.val := by omega
  have e1 : (((c.val * 256 + oh.val) * 256 + ow.val) * 4 + (2 * a + b)) / 1024 % 256 = oh.val := by omega
  have e2 : (((c.val * 256 + oh.val) * 256 + ow.val) * 4 + (2 * a + b)) / 4 % 256 = ow.val := by omega
  have e3 : (((c.val * 256 + oh.val) * 256 + ow.val) * 4 + (2 * a + b)) / 2 % 2 = a := by omega
  have e4 : (((c.val * 256 + oh.val) * 256 + ow.val) * 4 + (2 * a + b)) % 2 = b := by omega
  rw [val_main_v2_apply, val_main_v1_apply, val_main_v0_apply]
  congr 1
  funext d
  match d with
  | ⟨0, _⟩ => exact Fin.ext (by dsimp only [ix3, ix4]; rw [e0, e1, e2, e3, e4]; clear e0 e1 e2 e3 e4; omega)
  | ⟨1, _⟩ => exact Fin.ext (by dsimp only [ix3, ix4]; rw [e0, e1, e2, e3, e4]; clear e0 e1 e2 e3 e4; omega)
  | ⟨2, _⟩ => exact Fin.ext (by dsimp only [ix3, ix4]; rw [e0, e1, e2, e3, e4]; clear e0 e1 e2 e3 e4; omega)

/-- Slice `0` of the regrouped array with its unit axis dropped: position `(c·256 + oh)·256 + ow` of
    `[64, 256, 256]` is `(c, oh, ow, 0)` of `[64, 256, 256, 1]`, which the slice reads at
    `(c, oh, ow, 0)`, `0 = 2·0 + 0`: the window's entry `(c, 2·oh, 2·ow)`. -/
theorem slice0_at (x : (⟨S64x512x512, .f32⟩ : BufTy).Contents (Elt Ideal)) (c : Fin 64) (oh ow : Fin 256) :
    val_main_v4 (F := Ideal) x (ix3 c oh ow)
      = x (ix3 c (⟨2 * oh.val, by omega⟩ : Fin 512) (⟨2 * ow.val, by omega⟩ : Fin 512)) := by
  have hc : c.val < 64 := c.isLt
  have hoh : oh.val < 256 := oh.isLt
  have how : ow.val < 256 := ow.isLt
  have e : idx_main_v3 (idx_main_v4 (ix3 c oh ow)) = ix4 c oh ow (⟨2 * 0 + 0, by omega⟩ : Fin 4) := by
    funext d
    match d with
    | ⟨0, _⟩ => exact Fin.ext (by dsimp only [ix3, ix4]; omega)
    | ⟨1, _⟩ => exact Fin.ext (by dsimp only [ix3, ix4]; omega)
    | ⟨2, _⟩ => exact Fin.ext (by dsimp only [ix3, ix4]; omega)
    | ⟨3, _⟩ => exact Fin.ext (by dsimp only [ix3, ix4])
  rw [val_main_v4_apply, val_main_v3_apply, e]
  exact regrouped_at x c oh ow 0 0 (by omega) (by omega)

/-- Slice `1` of the regrouped array with its unit axis dropped: position `(c·256 + oh)·256 + ow` of
    `[64, 256, 256]` is `(c, oh, ow, 0)` of `[64, 256, 256, 1]`, which the slice reads at
    `(c, oh, ow, 1)`, `1 = 2·0 + 1`: the window's entry `(c, 2·oh, 2·ow + 1)`. -/
theorem slice1_at (x : (⟨S64x512x512, .f32⟩ : BufTy).Contents (Elt Ideal)) (c : Fin 64) (oh ow : Fin 256) :
    val_main_v6 (F := Ideal) x (ix3 c oh ow)
      = x (ix3 c (⟨2 * oh.val, by omega⟩ : Fin 512) (⟨2 * ow.val + 1, by omega⟩ : Fin 512)) := by
  have hc : c.val < 64 := c.isLt
  have hoh : oh.val < 256 := oh.isLt
  have how : ow.val < 256 := ow.isLt
  have e : idx_main_v5 (idx_main_v6 (ix3 c oh ow)) = ix4 c oh ow (⟨2 * 0 + 1, by omega⟩ : Fin 4) := by
    funext d
    match d with
    | ⟨0, _⟩ => exact Fin.ext (by dsimp only [ix3, ix4]; omega)
    | ⟨1, _⟩ => exact Fin.ext (by dsimp only [ix3, ix4]; omega)
    | ⟨2, _⟩ => exact Fin.ext (by dsimp only [ix3, ix4]; omega)
    | ⟨3, _⟩ => exact Fin.ext (by dsimp only [ix3, ix4])
  rw [val_main_v6_apply, val_main_v5_apply, e]
  exact regrouped_at x c oh ow 0 1 (by omega) (by omega)

/-- Slice `2` of the regrouped array with its unit axis dropped: position `(c·256 + oh)·256 + ow` of
    `[64, 256, 256]` is `(c, oh, ow, 0)` of `[64, 256, 256, 1]`, which the slice reads at
    `(c, oh, ow, 2)`, `2 = 2·1 + 0`: the window's entry `(c, 2·oh + 1, 2·ow)`. -/
theorem slice2_at (x : (⟨S64x512x512, .f32⟩ : BufTy).Contents (Elt Ideal)) (c : Fin 64) (oh ow : Fin 256) :
    val_main_v13 (F := Ideal) x (ix3 c oh ow)
      = x (ix3 c (⟨2 * oh.val + 1, by omega⟩ : Fin 512) (⟨2 * ow.val, by omega⟩ : Fin 512)) := by
  have hc : c.val < 64 := c.isLt
  have hoh : oh.val < 256 := oh.isLt
  have how : ow.val < 256 := ow.isLt
  have e : idx_main_v12 (idx_main_v13 (ix3 c oh ow)) = ix4 c oh ow (⟨2 * 1 + 0, by omega⟩ : Fin 4) := by
    funext d
    match d with
    | ⟨0, _⟩ => exact Fin.ext (by dsimp only [ix3, ix4]; omega)
    | ⟨1, _⟩ => exact Fin.ext (by dsimp only [ix3, ix4]; omega)
    | ⟨2, _⟩ => exact Fin.ext (by dsimp only [ix3, ix4]; omega)
    | ⟨3, _⟩ => exact Fin.ext (by dsimp only [ix3, ix4])
  rw [val_main_v13_apply, val_main_v12_apply, e]
  exact regrouped_at x c oh ow 1 0 (by omega) (by omega)

/-- Slice `3` of the regrouped array with its unit axis dropped: position `(c·256 + oh)·256 + ow` of
    `[64, 256, 256]` is `(c, oh, ow, 0)` of `[64, 256, 256, 1]`, which the slice reads at
    `(c, oh, ow, 3)`, `3 = 2·1 + 1`: the window's entry `(c, 2·oh + 1, 2·ow + 1)`. -/
theorem slice3_at (x : (⟨S64x512x512, .f32⟩ : BufTy).Contents (Elt Ideal)) (c : Fin 64) (oh ow : Fin 256) :
    val_main_v15 (F := Ideal) x (ix3 c oh ow)
      = x (ix3 c (⟨2 * oh.val + 1, by omega⟩ : Fin 512) (⟨2 * ow.val + 1, by omega⟩ : Fin 512)) := by
  have hc : c.val < 64 := c.isLt
  have hoh : oh.val < 256 := oh.isLt
  have how : ow.val < 256 := ow.isLt
  have e : idx_main_v14 (idx_main_v15 (ix3 c oh ow)) = ix4 c oh ow (⟨2 * 1 + 1, by omega⟩ : Fin 4) := by
    funext d
    match d with
    | ⟨0, _⟩ => exact Fin.ext (by dsimp only [ix3, ix4]; omega)
    | ⟨1, _⟩ => exact Fin.ext (by dsimp only [ix3, ix4]; omega)
    | ⟨2, _⟩ => exact Fin.ext (by dsimp only [ix3, ix4]; omega)
    | ⟨3, _⟩ => exact Fin.ext (by dsimp only [ix3, ix4])
  rw [val_main_v15_apply, val_main_v14_apply, e]
  exact regrouped_at x c oh ow 1 1 (by omega) (by omega)

/-! ## The arithmetic on one window -/

/-- The reference's arithmetic on the four entries of a window: the pair network on the two column pairs, then on
    the two results, each of the three wrapped in one more `max · 0` (the second operand of the last pair is
    wrapped once more before it is added), all of them the identity on a pair network's value. -/
theorem tournament (a b c d : EReal) :
    max (max (max (max (a - b) 0 + max b 0) 0 - max (max (c - d) 0 + max d 0) 0) 0
          + max (max (max (c - d) 0 + max d 0) 0) 0) 0
      = Cert.Pool.win a b c d := by
  show max (Cert.Pool.pm (max (Cert.Pool.pm a b) 0) (max (Cert.Pool.pm c d) 0)) 0 = _
  rw [Cert.Pool.max_pm_zero, Cert.Pool.max_pm_zero, Cert.Pool.max_pm_zero]
  rfl

/-! ## The reference is the specification -/

/-- The reference's result array is the pooled array of its argument, index by index. -/
theorem ref_eq (x : (⟨S64x512x512, .f32⟩ : BufTy).Contents (Elt Ideal)) :
    val_main_v25 (F := Ideal) x = Cert.Pool.pool x := by
  funext i
  obtain ⟨c, oh, ow, rfl⟩ : ∃ c oh ow, i = ix3 c oh ow := ⟨i 0, i 1, i 2, eq_ix3 i⟩
  simp only [val_main_v25_apply, val_main_v24_apply, val_main_v23_apply, val_main_v22_apply, val_main_v21_apply, val_main_v20_apply, val_main_v19_apply, val_main_v18_apply, val_main_v17_apply, val_main_v16_apply, val_main_v11_apply, val_main_v10_apply, val_main_v9_apply, val_main_v8_apply, val_main_v7_apply,
    val_main_call0_v0_apply, val_main_call0_cst_apply,
    val_main_call1_v0_apply, val_main_call1_cst_apply,
    val_main_call2_v0_apply, val_main_call2_cst_apply,
    val_main_call3_v0_apply, val_main_call3_cst_apply,
    val_main_call4_v0_apply, val_main_call4_cst_apply,
    val_main_call5_v0_apply, val_main_call5_cst_apply,
    val_main_call6_v0_apply, val_main_call6_cst_apply,
    val_main_call7_v0_apply, val_main_call7_cst_apply,
    val_main_call8_v0_apply, val_main_call8_cst_apply,
    slice0_at, slice1_at, slice2_at, slice3_at,
    Ideal.maximumf_def, Ideal.subf_def, Ideal.addf_def, Ideal.ofBits_def, Ideal.ofBits_zero_f32]
  exact tournament _ _ _ _

end Cert.ReferenceIdeal.PoolValue

end
-- ==== Proof.lean ====
/-
  A 2×2, stride-2 pooling of `x : [64, 512, 512]` by the pair network `pm a b = max (a − b) 0 + max b 0`,
  applied as a tournament over each window: the two column pairs first, then the two rows.

  The kernel reads the array as a matrix of 16384 rows of 1024 — row `256·c + oh` holds array rows `2·oh` and
  `2·oh + 1` of channel `c` side by side —, pools it 256 rows at a point (each point in four groups of 64 rows: a
  fixed lane permutation brings adjacent columns to the same lane, Proof/KernelRows.lean; the four stores are
  restrictions of one function of the block index, Proof/KernelBlock.lean; the 64 blocks cover the pooled matrix and
  the two host reshapes are row-major readings, Proof/KernelArray.lean), and reads the pooled matrix back as
  `[64, 256, 256]`.  The reference regroups the array into its windows and runs the same tournament with every pair
  wrapped in one more `max · 0`, the identity on a sum of two non-negative extended reals (Proof/RefValue.lean).
  Both results are `Cert.Pool.pool` of the argument (Proof/Spec.lean), at every extended real: the precondition is
  not used by the value claim.  The ideal pass rewrote nothing, so the idealization claim is `True`; the three frame
  claims are the generated frame runs.
-/
import proofs.«118153_g7490422964872_pilotgen1_124_11_alg».proof.Defs
import proofs.«118153_g7490422964872_pilotgen1_124_11_alg».proof.Proof.Gen.Kernel
import proofs.«118153_g7490422964872_pilotgen1_124_11_alg».proof.Proof.Gen.Kernel.Frame
import proofs.«118153_g7490422964872_pilotgen1_124_11_alg».proof.Proof.Gen.KernelIdeal
import proofs.«118153_g7490422964872_pilotgen1_124_11_alg».proof.Proof.Gen.KernelIdeal.Frame
import proofs.«118153_g7490422964872_pilotgen1_124_11_alg».proof.Proof.Gen.ReferenceIdeal
import proofs.«118153_g7490422964872_pilotgen1_124_11_alg».proof.Proof.Gen.ReferenceIdeal.Run
import proofs.«118153_g7490422964872_pilotgen1_124_11_alg».proof.Proof.Gen.ReferenceIdeal.Read
import proofs.«118153_g7490422964872_pilotgen1_124_11_alg».proof.Proof.Gen.Pre_finite_inputs
import proofs.«118153_g7490422964872_pilotgen1_124_11_alg».proof.Proof.KernelArray
import proofs.«118153_g7490422964872_pilotgen1_124_11_alg».proof.Proof.RefValue
import Idealize.ShloMosaic.Adequacy
import Idealize.ShloMosaic.Init

noncomputable section

namespace Cert.Proof

open Idealize.ShloMosaic Idealize.SL.Sem

/-- Both idealized programs end with the result array at the pooled array of the argument: the kernel by its run
    read through blocks and reshapes, the reference by its run read one operation at a time; the arguments agree. -/
theorem algebraic : Cert.algebraic_KernelIdeal_ReferenceIdeal := by
  intro m ρ m' ρ' _ hagree
  refine ⟨fun c => Cert.Pool.pool (m ((c.tc : Thread Cert.KernelIdeal.nD Cert.KernelIdeal.τ).loc Cert.KernelIdeal.main_arg0)),
    Cert.KernelIdeal.PoolValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v25_eq, Cert.ReferenceIdeal.PoolValue.ref_eq, hagree c]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
